-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S16x1024x4096 : Shape := ⟨3, ![16, 1024, 4096]⟩
abbrev S16x4096 : Shape := ⟨2, ![16, 4096]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  main_v17

def fn {F : FTy → Type} [FloatOps F] (main_arg0 : FVec F S32x512x1024 .f32) (main_arg1 : IVec S32 32) (main_arg2 : FVec F S16x1024x4096 .f32) (main_arg3 : FVec F S16x4096 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S16x1024x4096 .f32 := Host.absf main_arg2
  let main_cst_0 : FVec F S_ .f32 := constant S_ .f32 0x7F800000#32
  let main_v5 : FVec F S16x1024x4096 .f32 := broadcastInDim S16x1024x4096 ![] bcast_S_S16x1024x4096 main_cst_0
  let main_v6 : IVec S16x1024x4096 1 := cmpf .olt main_v4 main_v5
  let main_c_1 : IVec S_ 1 := constantI S_ 1 1#1
  let main_v7 : IVec S_ 1 := (fun x v => Host.reduce IntOp.andi x v reducesTo_S16x1024x4096_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg1 main_v14
  let main_c_5 : IVec S_ 1 := constantI S_ 1 1#1
  fn_part1 (F := F) main_v13 main_v15 main_c_5
-- ==== Kernel.lean ====
abbrev S32x512x1024 : Shape := ⟨3, ![32, 512, 1024]⟩
abbrev S32 : Shape := ⟨1, ![32]⟩
abbrev S16x1024x4096 : Shape := ⟨3, ![16, 1024, 4096]⟩
abbrev S16x4096 : Shape := ⟨2, ![16, 4096]⟩
abbrev S_ : Shape := ⟨0, ![]⟩
abbrev S32x1 : Shape := ⟨2, ![32, 1]⟩
abbrev S16x1x4096 : Shape := ⟨3, ![16, 1, 4096]⟩
abbrev S32x512x4096 : Shape := ⟨3, ![32, 512, 4096]⟩
abbrev S1x512x1024 : Shape := ⟨3, ![1, 512, 1024]⟩
abbrev S1 : Shape := ⟨1, ![1]⟩
abbrev S1x1024x2048 : Shape := ⟨3, ![1, 1024, 2048]⟩
abbrev S1x1x2048 : Shape := ⟨3, ![1, 1, 2048]⟩
abbrev S1x512x2048 : Shape := ⟨3, ![1, 512, 2048]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩

abbrev nBuf : Space → Nat
  | .hbm => 24
  | .vmem => 8
  | .smem => 2
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S16x1x4096, .f32⟩
  | .hbm, ⟨23, _⟩ => ⟨S32x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S32) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S32) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S16x4096_S16x1x4096 : S16x4096.ShapeCasts S16x1x4096
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  gather_S32_S32x1_S32_n_0_n_n_0_1_1_wf : GatherDims.WF S32 S32x1 S32 [] [0] [] [0] [] 1 ![1]
  dot_S512x1024_S1024x2048_S512x2048_1_0_0_1_n_n_wf : DotDims.WF S512x1024 S1024x2048 S512x2048 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg2) S1x1024x2048.size reads0_1 false false 2 stage0_1 sem0_1 nbuf0_1 hstage0_1

abbrev spec0_2 : Pipeline.WinSpec sig grid0.rank :=
  Pipeline.WinSpec.ofSpec (Memref.whole main_v9) S1x1x2048.size reads0_2 false false 2 stage0_2 sem0_2 nbuf0_2 hstage0_2

abbrev spec0_3 : Pipeline.WinSpec sig grid0.rank :=
  Pipeline.WinSpec.ofSpec (Memref.whole main_v10) S1x512x2048.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S32x512x1024.size a), EltTy.bits .f32 = 32 ∨ (Rect.block (s := S32x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x2048.size a ≤ S16x1024x4096.size a), EltTy.bits .f32 = 32 ∨ (Rect.block (s := S16x1024x4096) S1x1024x2048.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S16x1x4096.size a), EltTy.bits .f32 = 32 ∨ (Rect.block (s := S16x1x4096) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x512x2048.size a ≤ S32x512x4096.size a), EltTy.bits .f32 = 32 ∨ (Rect.block (s := S32x512x4096) S1x512x2048.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S16x1024x4096 : Shape := ⟨3, ![16, 1024, 4096]⟩
abbrev S16x4096 : Shape := ⟨2, ![16, 4096]⟩
abbrev S_ : Shape := ⟨0, ![]⟩
abbrev S32x1 : Shape := ⟨2, ![32, 1]⟩
abbrev S32x1024x4096 : Shape := ⟨3, ![32, 1024, 4096]⟩
abbrev S32x4096 : Shape := ⟨2, ![32, 4096]⟩
abbrev S32x512x4096 : Shape := ⟨3, ![32, 512, 4096]⟩
abbrev S32x1x4096 : Shape := ⟨3, ![32, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S16x1024x4096, .f32⟩
  | .hbm, ⟨3, _⟩ => ⟨S16x4096, .f32⟩
  | .hbm, ⟨4, _⟩ => ⟨S_, .i32⟩
  | .hbm, ⟨5, _⟩ => ⟨S32, .i32⟩
  | .hbm, ⟨6, _⟩ => ⟨S32, .i1⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32x1, .i32⟩
  | .hbm, ⟨12, _⟩ => ⟨S32x1024x4096, .f32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32x4096, .f32⟩
  | .hbm, ⟨22, _⟩ => ⟨S32x512x4096, .f32⟩
  | .hbm, ⟨23, _⟩ => ⟨S32x1x4096, .f32⟩
  | .hbm, ⟨24, _⟩ => ⟨S32x512x4096, .f32⟩
  | .hbm, ⟨25, _⟩ => ⟨S32x512x4096, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x4096_S32x1x4096_0_2 : S32x4096.BroadcastsInDim S32x1x4096 (![0, 2] : Fin 2 → Fin S32x1x4096.rank)
  bcast_S32x1x4096_S32x512x4096_0_1_2 : S32x1x4096.BroadcastsInDim S32x512x4096 (![0, 1, 2] : Fin 3 → Fin S32x512x4096.rank)
  gather_S16x1024x4096_S32x1_S32x1024x4096_12_0_n_n_0_1_110244096_wf : GatherDims.WF S16x1024x4096 S32x1 S32x1024x4096 [1, 2] [0] [] [0] [] 1 ![1, 1024, 4096]
  gather_S16x4096_S32x1_S32x4096_1_0_n_n_0_1_14096_wf : GatherDims.WF S16x4096 S32x1 S32x4096 [1] [0] [] [0] [] 1 ![1, 4096]
  dot_S32x512x1024_S32x1024x4096_S32x512x4096_2_1_1_2_0_0_wf : DotDims.WF S32x512x1024 S32x1024x4096 S32x512x4096 [2] [1] [1] [2] [0] [0]

variable [Facts₀]

def gather_S16x1024x4096_S32x1_S32x1024x4096_12_0_n_n_0_1_110244096 : GatherDims S16x1024x4096 S32x1 S32x1024x4096 where
  offsetDims := [1, 2]
  collapsedSliceDims := [0]
  operandBatchingDims := []
  startIndicesBatchingDims := []
  startIndexMap := [0]
  indexVectorDim := 1
  sliceSizes := ![1, 1024, 4096]
  wf := gather_S16x1024x4096_S32x1_S32x1024x4096_12_0_n_n_0_1_110244096_wf
def gather_S16x4096_S32x1_S32x4096_1_0_n_n_0_1_14096 : GatherDims S16x4096 S32x1 S32x4096 where
  offsetDims := [1]
  collapsedSliceDims := [0]
  operandBatchingDims := []
  startIndicesBatchingDims := []
  startIndexMap := [0]
  indexVectorDim := 1
  sliceSizes := ![1, 4096]
  wf := gather_S16x4096_S32x1_S32x4096_1_0_n_n_0_1_14096_wf
def dot_S32x512x1024_S32x1024x4096_S32x512x4096_2_1_1_2_0_0 : DotDims S32x512x1024 S32x1024x4096 S32x512x4096 where
  lhsContracting := [2]
  rhsContracting := [1]
  lhsNonContracting := [1]
  rhsNonContracting := [2]
  lhsBatch := [0]
  rhsBatch := [0]
  wf := dot_S32x512x1024_S32x1024x4096_S32x512x4096_2_1_1_2_0_0_wf

class Facts : Prop extends Facts₀ where

variable [Facts]
-- ==== Proof.Spec.lean ====
/-
  What both programs compute, stated once.

  Every batch row p of the input is multiplied by the weight matrix of ONE category and that category's bias row is
  added: out[p, s, h] = (∑ k, x[p, s, k] · W[row p, k, h]) + b[row p, h]. The two programs differ only in how a
  category id is turned into a row of the tables: one clips the id into 0 … 15, the other reads it the way array
  indexing does (a negative id counts from the end; the result is then kept inside the table). On ids that are not
  negative both give min(id, 15).
-/
import Idealize.ShloMosaic.PureOps.Ideal
import Idealize.ShloMosaic.Lib.ValueIdx

noncomputable section

namespace Cert.Spec

open Idealize.ShloMosaic Idealize.ShloMosaic.ValueIdx

/-- A category id clipped into the rows 0 … 15, as signed numbers: max with 0, then min with 15. -/
def clipw (c : BitVec 32) : BitVec 32 := IntOp.minsi 15#32 (IntOp.maxsi 0#32 c)

/-- A category id read as an array index: a negative id has 16 added. -/
def wrapw (c : BitVec 32) : BitVec 32 := Scalar.select (IntOp.cmpi .slt c 0#32) (IntOp.addi c 16#32) c

/-- The clipped id, as a signed number, lies in 0 … 15. -/
theorem clipw_toInt (c : BitVec 32) : 0 ≤ (clipw c).toInt ∧ (clipw c).toInt ≤ 15 := by
  unfold clipw IntOp.minsi IntOp.maxsi
  simp only [BitVec.slt, decide_eq_true_eq]
  have h0 : (0#32 : BitVec 32).toInt = 0 := by decide
  have h15 : (15#32 : BitVec 32).toInt = 15 := by decide
  split_ifs <;> constructor <;> omega

/-- The clipped id, as a natural number, is below 16. -/
theorem clipw_lt (c : BitVec 32) : (clipw c).toNat < 16 := by
  have h := clipw_toInt c
  rw [BitVec.toInt_eq_toNat_cond] at h
  have := (clipw c).isLt
  split_ifs at h <;> omega

/-- For an id that is not negative, clipping gives min(id, 15). -/
theorem clipw_of_nonneg (c : BitVec 32) (hc : 0 ≤ c.toInt) : (clipw c).toNat = min c.toInt.toNat 15 := by
  have hlt := clipw_lt c
  have e : ((clipw c).toNat : Int) = (clipw c).toInt := by
    rw [BitVec.toInt_eq_toNat_cond]; split_ifs <;> omega
  have hv : (clipw c).toInt = min c.toInt 15 := by
    unfold clipw IntOp.minsi IntOp.maxsi
    simp only [BitVec.slt, decide_eq_true_eq]
    have h0 : (0#32 : BitVec 32).toInt = 0 := by decide
    have h15 : (15#32 : BitVec 32).toInt = 15 := by decide
    split_ifs <;> omega
  omega

/-- An id that is not negative is read as itself. -/
theorem wrapw_of_nonneg (c : BitVec 32) (hc : 0 ≤ c.toInt) : wrapw c = c := by
  unfold wrapw Scalar.select IntOp.cmpi
  have h0 : (0#32 : BitVec 32).toInt = 0 := by decide
  have : c.slt 0#32 = false := by simp only [BitVec.slt, decide_eq_false_iff_not]; omega
  simp [this]

/-- The table row the clipping program uses for batch row p. -/
def krow (cat : IVec ⟨1, ![32]⟩ 32) (p : Fin 32) : Fin 16 := ⟨(clipw (cat (ix1 p))).toNat, clipw_lt _⟩

/-- The table row the indexing program uses for batch row p: the wrapped id, kept inside the table. -/
def rrow (cat : IVec ⟨1, ![32]⟩ 32) (p : Fin 32) : Fin 16 := ⟨min (wrapw (cat (ix1 p))).toInt.toNat 15, by omega⟩

/-- Where no id is negative the two programs use the same rows. -/
theorem krow_eq_rrow (cat : IVec ⟨1, ![32]⟩ 32) (h : ∀ p : Fin 32, 0 ≤ (cat (ix1 p)).toInt) : krow cat = rrow cat := by
  funext p
  apply Fin.ext
  show (clipw (cat (ix1 p))).toNat = min (wrapw (cat (ix1 p))).toInt.toNat 15
  rw [wrapw_of_nonneg _ (h p), clipw_of_nonneg _ (h p)]

/-- Entry (p, s, h) of the result: row s of batch p times column h of the chosen category's weights, plus that
    category's bias at h. -/
def Gat (x : FVec Ideal ⟨3, ![32, 512, 1024]⟩ .f32) (row : Fin 32 → Fin 16) (W : FVec Ideal ⟨3, ![16, 1024, 4096]⟩ .f32)
    (b : FVec Ideal ⟨2, ![16, 4096]⟩ .f32) (p : Fin 32) (s : Fin 512) (h : Fin 4096) : Ideal .f32 :=
  (∑ k : Fin 1024, x (ix3 p s k) * W (ix3 (row p) k h)) + b (ix2 (row p) h)

/-- The whole result array. -/
def G (x : FVec Ideal ⟨3, ![32, 512, 1024]⟩ .f32) (row : Fin 32 → Fin 16) (W : FVec Ideal ⟨3, ![16, 1024, 4096]⟩ .f32)
    (b : FVec Ideal ⟨2, ![16, 4096]⟩ .f32) : FVec Ideal ⟨3, ![32, 512, 4096]⟩ .f32 :=
  fun i => Gat x row W b (i 0) (i 1) (i 2)

theorem G_ix3 (x : FVec Ideal ⟨3, ![32, 512, 1024]⟩ .f32) (row : Fin 32 → Fin 16) (W : FVec Ideal ⟨3, ![16, 1024, 4096]⟩ .f32)
    (b : FVec Ideal ⟨2, ![16, 4096]⟩ .f32) (p : Fin 32) (s : Fin 512) (h : Fin 4096) :
    G x row W b (ix3 p s h) = Gat x row W b p s h := rfl

end Cert.Spec

end
-- ==== Proof.Perm.lean ====
/-
  The two tables the clipping program builds from the category ids, read entry by entry.

  The ids are clipped into 0 … 15 and the batch rows are sorted by clipped id (a stable sort of the pairs (id, position)
  by id). The first table lists, in sorted order, the ORIGINAL position of each batch row: entry j is σ j, where σ is
  the sorting permutation — a bijection of the 32 positions. The second lists the clipped id of that row: entry j is
  the clipped id at position σ j. Nothing here depends on what the ids are: σ is only ever used through "it is onto".
-/
import Idealize.ShloMosaic.Lib.SortFacts
import Idealize.ShloMosaic.Lib.StableHlo.Predicate
import Idealize.ShloMosaic.Lib.ValueIdx
import proofs.«413426_j59820304499003_2_alg».proof.Proof.Spec

noncomputable section

namespace Cert.Perm

open Idealize.ShloMosaic Idealize.ShloMosaic.ValueIdx Idealize.ShloMosaic.StableHlo.Predicate

abbrev T32 : Shape := ⟨1, ![32]⟩
abbrev T32x1 : Shape := ⟨2, ![32, 1]⟩

/-- Positions 0 … 31 as words. -/
abbrev positions : IVec T32 32 := iotaInDim T32 32 0

/-- The sorting permutation of a table of keys under a comparator of (key, position) pairs: sorted place j holds the
    pair that started at position σ j. -/
def σ (cmp : BitVec 32 × BitVec 32 → BitVec 32 × BitVec 32 → BitVec 1) (keys : IVec T32 32) : Fin 32 → Fin 32 :=
  sortedFrom (fun k k' => cmp (keys (Shape.Idx.ofFin k), positions (Shape.Idx.ofFin k))
    (keys (Shape.Idx.ofFin k'), positions (Shape.Idx.ofFin k')) == 1#1)

/-- Every position is some sorted place's. -/
theorem σ_surjective (cmp : BitVec 32 × BitVec 32 → BitVec 32 × BitVec 32 → BitVec 1) (keys : IVec T32 32) :
    Function.Surjective (σ cmp keys) := sortedFrom_surjective _

/-- The positions, sorted along with the keys: sorted place j holds position σ j, as a word. -/
theorem argsort_apply (cmp : BitVec 32 × BitVec 32 → BitVec 32 × BitVec 32 → BitVec 1) (keys : IVec T32 32) (j : T32.Idx) :
    (Host.sort2 T32 0 cmp keys positions).2 j = BitVec.ofNat 32 (σ cmp keys (j 0)).val := by
  unfold Host.sort2 σ
  simp [iotaInDim]

/-- A position, as a word, is not negative and reads back as itself. -/
theorem pos_word (n : Fin 32) : (BitVec.ofNat 32 n.val).toNat = n.val := by
  have := n.isLt
  simp only [BitVec.toNat_ofNat]
  omega

theorem pos_word_toInt (n : Fin 32) : (BitVec.ofNat 32 n.val).toInt = n.val := by
  rw [toInt_eq_toNat_of_lt (by rw [pos_word]; have := n.isLt; omega), pos_word]

/-- Reading a position the way array indexing reads an index (32 added when negative) changes nothing. -/
theorem wrap32_pos (n : Fin 32) :
    Scalar.select (IntOp.cmpi .slt (BitVec.ofNat 32 n.val) 0#32) (IntOp.addi (BitVec.ofNat 32 n.val) 32#32) (BitVec.ofNat 32 n.val)
      = BitVec.ofNat 32 n.val := by
  unfold Scalar.select IntOp.cmpi
  have h0 : (0#32 : BitVec 32).toInt = 0 := by decide
  have : (BitVec.ofNat 32 n.val).slt 0#32 = false := by
    simp only [BitVec.slt, decide_eq_false_iff_not, pos_word_toInt, h0]; omega
  simp [this]

end Cert.Perm

end
-- ==== Proof.TablesBits.lean ====
/-
  The two prefetched tables as the region finds them, and that every block they name lies inside its array.

  Table 0 is the batch rows in sorted order: entry j is position σ j as a word. Table 1 is the clipped category id of
  that row. So a block of the input or of the result named by table 0 is one of the 32 batch rows, and a block of the
  weights or of the bias named by table 1 is one of the 16 categories — whatever the ids are, because they are
  clipped before the tables are built.
-/
import proofs.«413426_j59820304499003_2_alg».proof.Proof.Gen.Kernel.Frame
import proofs.«413426_j59820304499003_2_alg».proof.Proof.Perm
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem Idealize.ShloMosaic.StableHlo
open Idealize.ShloMosaic.ValueIdx Idealize.ShloMosaic.StableHlo.Predicate

variable {F : FTy → Type} [FloatOps F] (m : (ℓ : Loc nD τ sig) → Buf (Elt F) ℓ)

/-- The category ids as launched. -/
abbrev cat : IVec S32 32 := m (((0 : Dev nD) : Thread nD τ).loc main_arg1)

/-- The ids clipped into 0 … 15, as the program computes them: max with a table of zeros, min with a table of 15s. -/
def clipv (ids : IVec S32 32) : IVec S32 32 :=
  minsi (broadcastInDim S32 ![] bcast_S_S32 (id (constantI S_ 32 15#32)))
    (maxsi (broadcastInDim S32 ![] bcast_S_S32 (id (constantI S_ 32 0#32))) ids)

/-- The positions sorted by clipped id. -/
def permv (ids : IVec S32 32) : IVec S32 32 :=
  (Host.sort2 S32 0 comparator_i32_i32_d0 (clipv ids) (iotaInDim S32 32 0)).2

/-- The clipped ids read at the sorted positions. -/
def sortedv (ids : IVec S32 32) : IVec S32 32 :=
  Host.gather gather_S32_S32x1_S32_n_0_n_n_0_1_1 (clipv ids)
    (broadcastInDim S32x1 ![0] bcast_S32_S32x1_0
      (select (cmpi .slt (permv ids) (broadcastInDim S32 ![] bcast_S_S32 (constantI S_ 32 0#32)))
        (addi (permv ids) (broadcastInDim S32 ![] bcast_S_S32 (constantI S_ 32 32#32))) (permv ids)))

/-- Table 0 when the region is entered. -/
theorem V_perm : (V m (0 : Dev nD) main_v1 : IVec S32 32) = permv (cat m) := by
  unfold permv clipv
  dsimp only [V]
  simp only [hostOps0, hostOps0_1, hostOps0_2, hostOps0_3, List.flatten_cons, List.flatten_nil, List.append_nil, List.cons_append,
    List.nil_append]
  after_results
  rfl

set_option maxHeartbeats 4000000 in
/-- Table 1 when the region is entered. -/
theorem V_sorted : (V m (0 : Dev nD) main_v8 : IVec S32 32) = sortedv (cat m) := by
  unfold sortedv permv clipv
  dsimp only [V]
  simp only [hostOps0, hostOps0_1, hostOps0_2, hostOps0_3, List.flatten_cons, List.flatten_nil, List.append_nil, List.cons_append,
    List.nil_append]
  after_results
  rfl

/-- The bias array the region reads: the launched bias with a unit axis inserted. -/
theorem V_bias (c : Dev nD) :
    (V m c main_v9 : FVec F S16x1x4096 .f32) = shapeCast S16x1x4096 (m ((c : Thread nD τ).loc main_arg3)) shapeCasts_S16x4096_S16x1x4096 := by
  dsimp only [V]
  simp only [hostOps0, hostOps0_1, hostOps0_2, hostOps0_3, List.flatten_cons, List.flatten_nil, List.append_nil, List.cons_append,
    List.nil_append]
  after_results
  rfl

/-! ## The tables entry by entry -/

/-- A clipped id is the scalar clip of the id. -/
theorem clipv_apply (ids : IVec S32 32) (j : S32.Idx) : clipv ids j = Cert.Spec.clipw (ids j) := rfl

/-- The sorting permutation of the batch rows by clipped id. -/
def sg (ids : IVec S32 32) : Fin 32 → Fin 32 := Cert.Perm.σ comparator_i32_i32_d0 (clipv ids)

/-- Every batch row has a place in the sorted order. -/
theorem sg_surjective (ids : IVec S32 32) : Function.Surjective (sg ids) := Cert.Perm.σ_surjective _ _

/-- Entry j of the sorted positions is position sg j, as a word. -/
theorem permv_apply (ids : IVec S32 32) (j : S32.Idx) : permv ids j = BitVec.ofNat 32 (sg ids (j 0)).val :=
  Cert.Perm.argsort_apply comparator_i32_i32_d0 (clipv ids) j

/-- The start index a gather reads at row p from a table P of positions: P is read as an array index (32 added when
    negative) and laid out as a column; where P's entry at p is the position n, the start index is n. -/
theorem start_at (P : IVec S32 32) (p n : Fin 32) (hP : P (Shape.Idx.ofFin p) = BitVec.ofNat 32 n.val) :
    (broadcastInDim S32x1 ![0] bcast_S32_S32x1_0
      (select (cmpi .slt P (broadcastInDim S32 ![] bcast_S_S32 (constantI S_ 32 0#32)))
        (addi P (broadcastInDim S32 ![] bcast_S_S32 (constantI S_ 32 32#32))) P)) (ixP p)
      = BitVec.ofNat 32 n.val := by
  rw [bcast_col1]
  show Scalar.select (IntOp.cmpi .slt (P (Shape.Idx.ofFin p)) 0#32) (IntOp.addi (P (Shape.Idx.ofFin p)) 32#32)
    (P (Shape.Idx.ofFin p)) = _
  rw [hP]
  exact Cert.Perm.wrap32_pos n

/-- A gather of the clipped ids at start indices that are positions reads the clipped id at that position. -/
theorem take_at (K : IVec S32 32) (idx : IVec S32x1 32) (p n : Fin 32) (hidx : idx (ixP p) = BitVec.ofNat 32 n.val) :
    Host.gather gather_S32_S32x1_S32_n_0_n_n_0_1_1 K idx (Shape.Idx.ofFin p) = K (Shape.Idx.ofFin n) := by
  refine (gather_take gather_S32_S32x1_S32_n_0_n_n_0_1_1 rfl rfl rfl rfl K idx p (by decide)).trans ?_
  refine congrArg (fun q => K (Shape.Idx.ofFin q)) (Fin.ext ?_)
  show min (idx (ixP p)).toInt.toNat (32 - 1) = n.val
  rw [hidx, Cert.Perm.pos_word_toInt]
  have := n.isLt
  simp only [Int.toNat_natCast]
  omega

/-- Entry p of the sorted ids is the clipped id of batch row sg p. -/
theorem sortedv_apply (ids : IVec S32 32) (p : Fin 32) :
    sortedv ids (Shape.Idx.ofFin p) = Cert.Spec.clipw (ids (Shape.Idx.ofFin (sg ids p))) := by
  unfold sortedv
  refine (take_at (clipv ids) _ p (sg ids p) (start_at (permv ids) p (sg ids p) ?_)).trans (clipv_apply _ _)
  exact (permv_apply ids (Shape.Idx.ofFin p)).trans (by rw [Shape.Idx.ofFin_zero])

/-- Table 0 at the region's entry, entry by entry. -/
theorem tbl0_apply (j : S32.Idx) : (tbl m 0 : IVec S32 32) j = BitVec.ofNat 32 (sg (cat m) (j 0)).val :=
  (congrFun (V_perm m) j).trans (permv_apply _ j)

/-- Table 1 at the region's entry, entry by entry. -/
theorem tbl1_apply (j : S32.Idx) :
    (tbl m 1 : IVec S32 32) j = Cert.Spec.clipw (cat m (Shape.Idx.ofFin (sg (cat m) (j 0)))) := by
  refine (congrFun (V_sorted m) j).trans ?_
  rw [Shape.Idx.eq_ofFin j]
  exact (sortedv_apply _ _).trans (by rw [Shape.Idx.ofFin_zero])

/-- Table 0 names batch rows, -/
theorem tbl0_lt (j : S32.Idx) : ((tbl m 0 : IVec S32 32) j).toNat < 32 := by
  rw [tbl0_apply, Cert.Perm.pos_word]; exact (sg (cat m) (j 0)).isLt

/-- and table 1 names categories. -/
theorem tbl1_lt (j : S32.Idx) : ((tbl m 1 : IVec S32 32) j).toNat < 16 := by
  rw [tbl1_apply]; exact Cert.Spec.clipw_lt _

/-! ## Every block the tables name lies inside its array -/

/-- For ANY contents of the two tables whose words are below 32 and below 16: the input's and the result's block
    (row, 0, ·) is one of 32 rows, the weights' and the bias's block (category, 0, half) one of 16 categories, and the
    half is the grid's first coordinate, 0 or 1. -/
theorem ok_of_bounds (pf : pre0.Contents (Elt F)) (h0 : ∀ x, ((pf 0 : IVec S32 32) x).toNat < 32)
    (h1 : ∀ x, ((pf 1 : IVec S32 32) x).toNat < 16) : ok0 (F := F) pf := by
  have hhalf : ∀ i : grid0.Coords, (BitVec.ofNat 32 (i 0).val).toNat < 2 := fun i => by
    have h := (i 0).isLt
    have e : grid0.bound 0 = 2 := by decide
    simp only [BitVec.toNat_ofNat]
    omega
  refine ⟨fun i => ?_, fun i => ?_, fun i => ?_, fun i => ?_⟩
  · obtain ⟨w, hw, e⟩ : ∃ w : BitVec 32, w.toNat < 32 ∧ cc0_transform_0 k0_off1_inb numel1_S1 pf i = ![w.toNat, 0, 0] :=
      ⟨_, h0 _, rfl⟩
    refine ⟨fun a => ?_, Or.inl rfl⟩
    rw [e]
    fin_cases a <;> simp [S1x512x1024, S32x512x1024] <;> omega
  · obtain ⟨w, v, hw, hv, e⟩ : ∃ w v : BitVec 32, w.toNat < 16 ∧ v.toNat < 2 ∧
        cc0_transform_1 k0_off1_inb numel1_S1 pf i = ![w.toNat, 0, v.toNat] := ⟨_, _, h1 _, hhalf i, rfl⟩
    refine ⟨fun a => ?_, Or.inl rfl⟩
    rw [e]
    fin_cases a <;> simp [S1x1024x2048, S16x1024x4096] <;> omega
  · obtain ⟨w, v, hw, hv, e⟩ : ∃ w v : BitVec 32, w.toNat < 16 ∧ v.toNat < 2 ∧
        cc0_transform_2 k0_off1_inb numel1_S1 pf i = ![w.toNat, 0, v.toNat] := ⟨_, _, h1 _, hhalf i, rfl⟩
    refine ⟨fun a => ?_, Or.inl rfl⟩
    rw [e]
    fin_cases a <;> simp [S1x1x2048, S16x1x4096] <;> omega
  · obtain ⟨w, v, hw, hv, e⟩ : ∃ w v : BitVec 32, w.toNat < 32 ∧ v.toNat < 2 ∧
        cc0_transform_3 k0_off1_inb numel1_S1 pf i = ![w.toNat, 0, v.toNat] := ⟨_, _, h0 _, hhalf i, rfl⟩
    refine ⟨fun a => ?_, Or.inl rfl⟩
    rw [e]
    fin_cases a <;> simp [S1x512x2048, S32x512x4096] <;> omega

/-- The side condition of the tables read off the launch memory, whatever the category ids are. -/
theorem ok : Ok m := ok_of_bounds (tbl m) (tbl0_lt m) (tbl1_lt m)

end Cert.Kernel.Tables

end
-- ==== Proof.TablesIdeal.lean ====
/-
  The two prefetched tables as the region finds them, and that every block they name lies inside its array.

  Table 0 is the batch rows in sorted order: entry j is position σ j as a word. Table 1 is the clipped category id of
  that row. So a block of the input or of the result named by table 0 is one of the 32 batch rows, and a block of the
  weights or of the bias named by table 1 is one of the 16 categories — whatever the ids are, because they are
  clipped before the tables are built.
-/
import proofs.«413426_j59820304499003_2_alg».proof.Proof.Gen.KernelIdeal.Frame
import proofs.«413426_j59820304499003_2_alg».proof.Proof.Perm
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Idealize.ShloMosaic.ValueIdx Idealize.ShloMosaic.StableHlo.Predicate

variable {F : FTy → Type} [FloatOps F] (m : (ℓ : Loc nD τ sig) → Buf (Elt F) ℓ)

/-- The category ids as launched. -/
abbrev cat : IVec S32 32 := m (((0 : Dev nD) : Thread nD τ).loc main_arg1)

/-- The ids clipped into 0 … 15, as the program computes them: max with a table of zeros, min with a table of 15s. -/
def clipv (ids : IVec S32 32) : IVec S32 32 :=
  minsi (broadcastInDim S32 ![] bcast_S_S32 (id (constantI S_ 32 15#32)))
    (maxsi (broadcastInDim S32 ![] bcast_S_S32 (id (constantI S_ 32 0#32))) ids)

/-- The positions sorted by clipped id. -/
def permv (ids : IVec S32 32) : IVec S32 32 :=
  (Host.sort2 S32 0 comparator_i32_i32_d0 (clipv ids) (iotaInDim S32 32 0)).2

/-- The clipped ids read at the sorted positions. -/
def sortedv (ids : IVec S32 32) : IVec S32 32 :=
  Host.gather gather_S32_S32x1_S32_n_0_n_n_0_1_1 (clipv ids)
    (broadcastInDim S32x1 ![0] bcast_S32_S32x1_0
      (select (cmpi .slt (permv ids) (broadcastInDim S32 ![] bcast_S_S32 (constantI S_ 32 0#32)))
        (addi (permv ids) (broadcastInDim S32 ![] bcast_S_S32 (constantI S_ 32 32#32))) (permv ids)))

/-- Table 0 when the region is entered. -/
theorem V_perm : (V m (0 : Dev nD) main_v1 : IVec S32 32) = permv (cat m) := by
  unfold permv clipv
  dsimp only [V]
  simp only [hostOps0, hostOps0_1, hostOps0_2, hostOps0_3, List.flatten_cons, List.flatten_nil, List.append_nil, List.cons_append,
    List.nil_append]
  after_results
  rfl

set_option maxHeartbeats 4000000 in
/-- Table 1 when the region is entered. -/
theorem V_sorted : (V m (0 : Dev nD) main_v8 : IVec S32 32) = sortedv (cat m) := by
  unfold sortedv permv clipv
  dsimp only [V]
  simp only [hostOps0, hostOps0_1, hostOps0_2, hostOps0_3, List.flatten_cons, List.flatten_nil, List.append_nil, List.cons_append,
    List.nil_append]
  after_results
  rfl

/-- The bias array the region reads: the launched bias with a unit axis inserted. -/
theorem V_bias (c : Dev nD) :
    (V m c main_v9 : FVec F S16x1x4096 .f32) = shapeCast S16x1x4096 (m ((c : Thread nD τ).loc main_arg3)) shapeCasts_S16x4096_S16x1x4096 := by
  dsimp only [V]
  simp only [hostOps0, hostOps0_1, hostOps0_2, hostOps0_3, List.flatten_cons, List.flatten_nil, List.append_nil, List.cons_append,
    List.nil_append]
  after_results
  rfl

/-! ## The tables entry by entry -/

/-- A clipped id is the scalar clip of the id. -/
theorem clipv_apply (ids : IVec S32 32) (j : S32.Idx) : clipv ids j = Cert.Spec.clipw (ids j) := rfl

/-- The sorting permutation of the batch rows by clipped id. -/
def sg (ids : IVec S32 32) : Fin 32 → Fin 32 := Cert.Perm.σ comparator_i32_i32_d0 (clipv ids)

/-- Every batch row has a place in the sorted order. -/
theorem sg_surjective (ids : IVec S32 32) : Function.Surjective (sg ids) := Cert.Perm.σ_surjective _ _

/-- Entry j of the sorted positions is position sg j, as a word. -/
theorem permv_apply (ids : IVec S32 32) (j : S32.Idx) : permv ids j = BitVec.ofNat 32 (sg ids (j 0)).val :=
  Cert.Perm.argsort_apply comparator_i32_i32_d0 (clipv ids) j

/-- The start index a gather reads at row p from a table P of positions: P is read as an array index (32 added when
    negative) and laid out as a column; where P's entry at p is the position n, the start index is n. -/
theorem start_at (P : IVec S32 32) (p n : Fin 32) (hP : P (Shape.Idx.ofFin p) = BitVec.ofNat 32 n.val) :
    (broadcastInDim S32x1 ![0] bcast_S32_S32x1_0
      (select (cmpi .slt P (broadcastInDim S32 ![] bcast_S_S32 (constantI S_ 32 0#32)))
        (addi P (broadcastInDim S32 ![] bcast_S_S32 (constantI S_ 32 32#32))) P)) (ixP p)
      = BitVec.ofNat 32 n.val := by
  rw [bcast_col1]
  show Scalar.select (IntOp.cmpi .slt (P (Shape.Idx.ofFin p)) 0#32) (IntOp.addi (P (Shape.Idx.ofFin p)) 32#32)
    (P (Shape.Idx.ofFin p)) = _
  rw [hP]
  exact Cert.Perm.wrap32_pos n

/-- A gather of the clipped ids at start indices that are positions reads the clipped id at that position. -/
theorem take_at (K : IVec S32 32) (idx : IVec S32x1 32) (p n : Fin 32) (hidx : idx (ixP p) = BitVec.ofNat 32 n.val) :
    Host.gather gather_S32_S32x1_S32_n_0_n_n_0_1_1 K idx (Shape.Idx.ofFin p) = K (Shape.Idx.ofFin n) := by
  refine (gather_take gather_S32_S32x1_S32_n_0_n_n_0_1_1 rfl rfl rfl rfl K idx p (by decide)).trans ?_
  refine congrArg (fun q => K (Shape.Idx.ofFin q)) (Fin.ext ?_)
  show min (idx (ixP p)).toInt.toNat (32 - 1) = n.val
  rw [hidx, Cert.Perm.pos_word_toInt]
  have := n.isLt
  simp only [Int.toNat_natCast]
  omega

/-- Entry p of the sorted ids is the clipped id of batch row sg p. -/
theorem sortedv_apply (ids : IVec S32 32) (p : Fin 32) :
    sortedv ids (Shape.Idx.ofFin p) = Cert.Spec.clipw (ids (Shape.Idx.ofFin (sg ids p))) := by
  unfold sortedv
  refine (take_at (clipv ids) _ p (sg ids p) (start_at (permv ids) p (sg ids p) ?_)).trans (clipv_apply _ _)
  exact (permv_apply ids (Shape.Idx.ofFin p)).trans (by rw [Shape.Idx.ofFin_zero])

/-- Table 0 at the region's entry, entry by entry. -/
theorem tbl0_apply (j : S32.Idx) : (tbl m 0 : IVec S32 32) j = BitVec.ofNat 32 (sg (cat m) (j 0)).val :=
  (congrFun (V_perm m) j).trans (permv_apply _ j)

/-- Table 1 at the region's entry, entry by entry. -/
theorem tbl1_apply (j : S32.Idx) :
    (tbl m 1 : IVec S32 32) j = Cert.Spec.clipw (cat m (Shape.Idx.ofFin (sg (cat m) (j 0)))) := by
  refine (congrFun (V_sorted m) j).trans ?_
  rw [Shape.Idx.eq_ofFin j]
  exact (sortedv_apply _ _).trans (by rw [Shape.Idx.ofFin_zero])

/-- Table 0 names batch rows, -/
theorem tbl0_lt (j : S32.Idx) : ((tbl m 0 : IVec S32 32) j).toNat < 32 := by
  rw [tbl0_apply, Cert.Perm.pos_word]; exact (sg (cat m) (j 0)).isLt

/-- and table 1 names categories. -/
theorem tbl1_lt (j : S32.Idx) : ((tbl m 1 : IVec S32 32) j).toNat < 16 := by
  rw [tbl1_apply]; exact Cert.Spec.clipw_lt _

/-! ## Every block the tables name lies inside its array -/

/-- For ANY contents of the two tables whose words are below 32 and below 16: the input's and the result's block
    (row, 0, ·) is one of 32 rows, the weights' and the bias's block (category, 0, half) one of 16 categories, and the
    half is the grid's first coordinate, 0 or 1. -/
theorem ok_of_bounds (pf : pre0.Contents (Elt F)) (h0 : ∀ x, ((pf 0 : IVec S32 32) x).toNat < 32)
    (h1 : ∀ x, ((pf 1 : IVec S32 32) x).toNat < 16) : ok0 (F := F) pf := by
  have hhalf : ∀ i : grid0.Coords, (BitVec.ofNat 32 (i 0).val).toNat < 2 := fun i => by
    have h := (i 0).isLt
    have e : grid0.bound 0 = 2 := by decide
    simp only [BitVec.toNat_ofNat]
    omega
  refine ⟨fun i => ?_, fun i => ?_, fun i => ?_, fun i => ?_⟩
  · obtain ⟨w, hw, e⟩ : ∃ w : BitVec 32, w.toNat < 32 ∧ cc0_transform_0 k0_off1_inb numel1_S1 pf i = ![w.toNat, 0, 0] :=
      ⟨_, h0 _, rfl⟩
    refine ⟨fun a => ?_, Or.inl rfl⟩
    rw [e]
    fin_cases a <;> simp [S1x512x1024, S32x512x1024] <;> omega
  · obtain ⟨w, v, hw, hv, e⟩ : ∃ w v : BitVec 32, w.toNat < 16 ∧ v.toNat < 2 ∧
        cc0_transform_1 k0_off1_inb numel1_S1 pf i = ![w.toNat, 0, v.toNat] := ⟨_, _, h1 _, hhalf i, rfl⟩
    refine ⟨fun a => ?_, Or.inl rfl⟩
    rw [e]
    fin_cases a <;> simp [S1x1024x2048, S16x1024x4096] <;> omega
  · obtain ⟨w, v, hw, hv, e⟩ : ∃ w v : BitVec 32, w.toNat < 16 ∧ v.toNat < 2 ∧
        cc0_transform_2 k0_off1_inb numel1_S1 pf i = ![w.toNat, 0, v.toNat] := ⟨_, _, h1 _, hhalf i, rfl⟩
    refine ⟨fun a => ?_, Or.inl rfl⟩
    rw [e]
    fin_cases a <;> simp [S1x1x2048, S16x1x4096] <;> omega
  · obtain ⟨w, v, hw, hv, e⟩ : ∃ w v : BitVec 32, w.toNat < 32 ∧ v.toNat < 2 ∧
        cc0_transform_3 k0_off1_inb numel1_S1 pf i = ![w.toNat, 0, v.toNat] := ⟨_, _, h0 _, hhalf i, rfl⟩
    refine ⟨fun a => ?_, Or.inl rfl⟩
    rw [e]
    fin_cases a <;> simp [S1x512x2048, S32x512x4096] <;> omega

/-- The side condition of the tables read off the launch memory, whatever the category ids are. -/
theorem ok : Ok m := ok_of_bounds (tbl m) (tbl0_lt m) (tbl1_lt m)

end Cert.KernelIdeal.Tables

end
-- ==== Proof.Body.lean ====
/-
  What one grid point's body leaves in its output block, read at an index.
-/
import proofs.«413426_j59820304499003_2_alg».proof.Proof.Gen.KernelIdeal.Frame
import proofs.«413426_j59820304499003_2_alg».proof.Proof.Spec
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The block the body leaves is its one store's value -/

/-- The three zero offsets of a whole-block load or store. -/
theorem zero_offsets : (![0, 0, 0] : Fin 3 → Nat) = fun _ => 0 := funext fun a => by fin_cases a <;> rfl

/-- The body stores once, over its whole output block, so the block ends as that store's value: the body's arithmetic
    applied to the three input blocks. -/
theorem out_eq_payload {F : FTy → Type} [FloatOps F] (c : Dev nD) (i : grid0.Coords)
    (arg4 : Memref sig .tc .vmem S1x512x1024 .f32) (harg4 : arg4.IsWhole)
    (arg5 : Memref sig .tc .vmem S1x1024x2048 .f32) (harg5 : arg5.IsWhole)
    (arg6 : Memref sig .tc .vmem S1x1x2048 .f32) (harg6 : arg6.IsWhole)
    (arg7 : Memref sig .tc .vmem S1x512x2048 .f32) (harg7 : arg7.IsWhole)
    (x0 : Vec F S1x512x1024 .f32) (x1 : Vec F S1x1024x2048 .f32) (x2 : Vec F S1x1x2048 .f32)
    (xt0 : TbBuf0 (F := F) c tbM0_0) (xt1 : TbBuf0 (F := F) c tbM0_1) :
    out0_A_3 (F := F) c i arg4 harg4 arg5 harg5 arg6 harg6 arg7 harg7 x0 x1 x2 xt0 xt1 = k0_pay1 x0 x1 x2 := by
  unfold out0_A_3
  rw [View.read_writes_eq_canon _ _ _ (cover0_A_3 c i arg4 harg4 arg5 harg5 arg6 harg6 arg7 harg7 x0 x1 x2 xt0 xt1)]
  unfold kernelRun0_A
  dsimp only
  sl_unfold_words
  rw [View.canon_unit_zero zero_offsets]
  simp only [View.readAt_eq_ld, harg4.read_unread, harg5.read_unread, harg6.read_unread,
    View.ld_unit_zero (S := S1x512x1024) zero_offsets, View.ld_unit_zero (S := S1x1024x2048) zero_offsets,
    View.ld_unit_zero (S := S1x1x2048) zero_offsets]

/-! ## The product's operand indices, axis by axis -/

/-- The left operand's row is the output's row. -/
theorem lhs_row (j : S512x2048.Idx) (q : dot_S512x1024_S1024x2048_S512x2048_1_0_0_1_n_n.contr.Idx) :
    (dot_S512x1024_S1024x2048_S512x2048_1_0_0_1_n_n.lhsIdx j q 0).val = (j 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- The left operand's column is the contraction position. -/
theorem lhs_col (j : S512x2048.Idx) (q : dot_S512x1024_S1024x2048_S512x2048_1_0_0_1_n_n.contr.Idx) :
    (dot_S512x1024_S1024x2048_S512x2048_1_0_0_1_n_n.lhsIdx j q 1).val = (q ⟨0, by decide⟩).val :=
  dot_S512x1024_S1024x2048_S512x2048_1_0_0_1_n_n.lhsIdx_val_of_single rfl j q

/-- The right operand's row is the contraction position. -/
theorem rhs_row (j : S512x2048.Idx) (q : dot_S512x1024_S1024x2048_S512x2048_1_0_0_1_n_n.contr.Idx) :
    (dot_S512x1024_S1024x2048_S512x2048_1_0_0_1_n_n.rhsIdx j q 0).val = (q ⟨0, by decide⟩).val :=
  dot_S512x1024_S1024x2048_S512x2048_1_0_0_1_n_n.rhsIdx_val_of_single rfl j q

/-- The right operand's column is the output's column. -/
theorem rhs_col (j : S512x2048.Idx) (q : dot_S512x1024_S1024x2048_S512x2048_1_0_0_1_n_n.contr.Idx) :
    (dot_S512x1024_S1024x2048_S512x2048_1_0_0_1_n_n.rhsIdx j q 1).val = (j 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The matrix product into a zero accumulator, at (s, h): the sum over k of a(s, k) · b(k, h). -/
theorem product_apply (a : FVec Ideal S512x1024 .bf16) (b : FVec Ideal S1024x2048 .bf16) (s : Fin 512) (h : Fin 2048) :
    matmul dot_S512x1024_S1024x2048_S512x2048_1_0_0_1_n_n none a b (constant (F := Ideal) S512x2048 .f32 0x00000000#32) (ix2 s h)
      = ∑ k : Fin 1024, a (ix2 s k) * b (ix2 k h) := by
  refine (Ideal.matmul_constant_zero_apply dot_S512x1024_S1024x2048_S512x2048_1_0_0_1_n_n none a b (ix2 s h)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 s h)
      ((contrEquiv1 dot_S512x1024_S1024x2048_S512x2048_1_0_0_1_n_n 1024 rfl rfl).symm k) = ix2 s k :=
    funext fun ax => Fin.ext (by
      match ax with
      | ⟨0, _⟩ => exact lhs_row _ _
      | ⟨1, _⟩ => exact (lhs_col _ _).trans hk)
  have er : dot_S512x1024_S1024x2048_S512x2048_1_0_0_1_n_n.rhsIdx (ix2 s h)
      ((contrEquiv1 dot_S512x1024_S1024x2048_S512x2048_1_0_0_1_n_n 1024 rfl rfl).symm k) = ix2 k h :=
    funext fun ax => Fin.ext (by
      match ax with
      | ⟨0, _⟩ => exact (rhs_row _ _).trans hk
      | ⟨1, _⟩ => exact rhs_col _ _)
  rw [el, er]

/-- The body's arithmetic at (0, s, h): the product of the two blocks with their unit axis dropped, plus the bias row. -/
theorem payload_apply (x0 : Vec Ideal S1x512x1024 .f32) (x1 : Vec Ideal S1x1024x2048 .f32) (x2 : Vec Ideal S1x1x2048 .f32)
    (s : Fin 512) (h : Fin 2048) :
    k0_pay1 (F := Ideal) x0 x1 x2 (ix3 (0 : Fin 1) s h)
      = (∑ k : Fin 1024, x0 (ix3 (0 : Fin 1) s k) * x1 (ix3 (0 : Fin 1) k h)) + x2 (ix3 (0 : Fin 1) (0 : Fin 1) h) := by
  unfold k0_pay1
  refine (shapeCast_ab_1ab_apply _ _ (0 : Fin 1) s h).trans ?_
  refine (addf_apply _ _ (ix2 s h)).trans ?_
  refine congrArg₂ (· + ·) ?_ ?_
  · refine (product_apply _ _ s h).trans ?_
    refine Finset.sum_congr rfl fun k _ => ?_
    exact congrArg₂ (· * ·) (shapeCast_1ab_ab_apply x0 _ s k) (shapeCast_1ab_ab_apply x1 _ k h)
  · exact (broadcastTo_1b_ab_apply _ _ s h).trans (shapeCast_1ab_ab_apply x2 _ (0 : Fin 1) h)

/-! ## The block at an index -/

/-- Entry (s, h) of the block a grid point writes: row s of its input block times column h of its weight block, plus
    its bias block at h. -/
theorem out_apply (c : Dev nD) (i : grid0.Coords) (arg4 : Memref sig .tc .vmem S1x512x1024 .f32) (harg4 : arg4.IsWhole)
    (arg5 : Memref sig .tc .vmem S1x1024x2048 .f32) (harg5 : arg5.IsWhole) (arg6 : Memref sig .tc .vmem S1x1x2048 .f32) (harg6 : arg6.IsWhole)
    (arg7 : Memref sig .tc .vmem S1x512x2048 .f32) (harg7 : arg7.IsWhole)
    (x0 : Vec Ideal S1x512x1024 .f32) (x1 : Vec Ideal S1x1024x2048 .f32) (x2 : Vec Ideal S1x1x2048 .f32)
    (xt0 : TbBuf0 (F := Ideal) c tbM0_0) (xt1 : TbBuf0 (F := Ideal) c tbM0_1) (s : Fin 512) (h : Fin 2048) :
    out0_A_3 (F := Ideal) c i arg4 harg4 arg5 harg5 arg6 harg6 arg7 harg7 x0 x1 x2 xt0 xt1 (ix3 (0 : Fin 1) s h)
      = (∑ k : Fin 1024, x0 (ix3 (0 : Fin 1) s k) * x1 (ix3 (0 : Fin 1) k h)) + x2 (ix3 (0 : Fin 1) (0 : Fin 1) h) := by
  refine (congrFun (out_eq_payload (F := Ideal) c i arg4 harg4 arg5 harg5 arg6 harg6 arg7 harg7 x0 x1 x2 xt0 xt1)
    (ix3 (0 : Fin 1) s h)).trans ?_
  exact payload_apply x0 x1 x2 s h

end Cert.KernelIdeal.Body

end
-- ==== Proof.KernelValue.lean ====
/-
  The array the clipping program leaves, as one function of its arguments.

  The grid has 2 × 32 points (half, place). The point (half, place) works on the batch row r = sg place — the row in
  that place of the sorted order — and on that row's clipped category c: it reads row r of the input, the columns
  2048·half … 2048·half + 2047 of category c's weights and bias, and writes those columns of row r of the result. Since sg
  is a bijection of the 32 rows, the 64 blocks written tile the result, each written by exactly one point, and no two
  consecutive points write the same block; so every point writes its block back, and the result ends holding, at
  (p, s, h), the sum over k of x[p, s, k] · W[clip(id p), k, h], plus b[clip(id p), h].
-/
import proofs.«413426_j59820304499003_2_alg».proof.Proof.Gen.KernelIdeal.Frame
import proofs.«413426_j59820304499003_2_alg».proof.Proof.TablesIdeal
import proofs.«413426_j59820304499003_2_alg».proof.Proof.Body
import Idealize.ShloMosaic.Lib.Pipeline.Value

set_option maxRecDepth 16384

noncomputable section

namespace Cert.KernelIdeal.KValue

open Cert.KernelIdeal Cert.KernelIdeal.Gen Cert.KernelIdeal.Tables
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid -/

theorem bound_half : grid0.bound (0 : Fin 2) = 2 := rfl
theorem bound_place : grid0.bound (1 : Fin 2) = 32 := rfl

/-- A point's first coordinate: which half of the 4096 columns. -/
def half (i : grid0.Coords) : Fin 2 := ⟨(i 0).val, (i 0).isLt⟩
/-- Its second coordinate: which place of the sorted order. -/
def place (i : grid0.Coords) : Fin 32 := ⟨(i 1).val, (i 1).isLt⟩

/-- Point number t has half t / 32 and place t mod 32. -/
theorem coords_val : ∀ t : Fin grid0.N, (grid0.coords t 0).val = t.val / 32 ∧ (grid0.coords t 1).val = t.val % 32 :=
  (by decide +kernel : ∀ t : Fin grid0.N, _)

/-! ## The words the index maps read -/

/-- The table index a point's index maps read: its place. -/
theorem table_index (i : grid0.Coords) :
    (Rect.unit (s := S32) (k0_off1 i) S1.size (k0_off1_inb i)).emb (Shape.Idx.first (numel1_S1.symm ▸ Nat.one_pos))
      = Shape.Idx.ofFin (place i) := by
  funext a
  have ha : a = 0 := Subsingleton.elim _ _
  subst ha
  apply Fin.ext
  show (k0_off1 i) 0 + 1 * (Shape.Idx.first (numel1_S1.symm ▸ Nat.one_pos) (0 : Fin 1)).val = (i 1).val
  have h1 : (Shape.Idx.first (s := S1) (numel1_S1.symm ▸ Nat.one_pos) (0 : Fin 1)).val = 0 := by
    have := (Shape.Idx.first (s := S1) (numel1_S1.symm ▸ Nat.one_pos) (0 : Fin 1)).isLt
    have e : S1.size (0 : Fin 1) = 1 := rfl
    omega
  have h2 : (k0_off1 i) 0 = (i 1).val := by
    show (BitVec.ofNat 32 (i 1).val).toNat = (i 1).val
    have : (i 1).val < 32 := (i 1).isLt
    simp only [BitVec.toNat_ofNat]
    omega
  rw [h1, h2]; omega

/-- The half, as the word the index maps compute it. -/
theorem half_word (i : grid0.Coords) : (BitVec.ofNat 32 (i 0).val).toNat = (half i).val := by
  have : (i 0).val < 2 := (i 0).isLt
  show (BitVec.ofNat 32 (i 0).val).toNat = (i 0).val
  simp only [BitVec.toNat_ofNat]
  omega

/-- The four index maps at ANY contents of the tables: the input's and the result's block index is the table-0 word at
    the point's place, the weights' and the bias's the table-1 word; the last coordinate is the half (0 for the input). -/
theorem map0 (pf : pre0.Contents (Elt Ideal)) (i : grid0.Coords) :
    cc0_transform_0 k0_off1_inb numel1_S1 pf i = ![((pf 0 : IVec S32 32) (Shape.Idx.ofFin (place i))).toNat, 0, 0] := by
  rw [← table_index]; rfl
theorem map1 (pf : pre0.Contents (Elt Ideal)) (i : grid0.Coords) :
    cc0_transform_1 k0_off1_inb numel1_S1 pf i = ![((pf 1 : IVec S32 32) (Shape.Idx.ofFin (place i))).toNat, 0, (half i).val] := by
  rw [← table_index, ← half_word]; rfl
theorem map2 (pf : pre0.Contents (Elt Ideal)) (i : grid0.Coords) :
    cc0_transform_2 k0_off1_inb numel1_S1 pf i = ![((pf 1 : IVec S32 32) (Shape.Idx.ofFin (place i))).toNat, 0, (half i).val] := by
  rw [← table_index, ← half_word]; rfl
theorem map3 (pf : pre0.Contents (Elt Ideal)) (i : grid0.Coords) :
    cc0_transform_3 k0_off1_inb numel1_S1 pf i = ![((pf 0 : IVec S32 32) (Shape.Idx.ofFin (place i))).toNat, 0, (half i).val] := by
  rw [← table_index, ← half_word]; rfl

/-! ## The row and the category a point works on -/

/-- The side condition of the tables, which holds whatever the ids are. -/
abbrev hO : Ok m := Tables.ok m

/-- The batch row point t works on. -/
def rowOf (t : Fin grid0.N) : Fin 32 := sg (cat m) (place (grid0.coords t))
/-- The category it uses: that row's clipped id. -/
def catOf (t : Fin grid0.N) : Fin 16 := Cert.Spec.krow (cat m) (rowOf m t)

theorem ix1_eq_ofFin (p : Fin 32) : (ix1 p : S32.Idx) = Shape.Idx.ofFin p :=
  funext fun a => by
    match a with
    | ⟨0, _⟩ => exact Fin.ext rfl

/-- Table 0 at a point's place is its row, table 1 its category. -/
theorem word0 (t : Fin grid0.N) : ((tbl m 0 : IVec S32 32) (Shape.Idx.ofFin (place (grid0.coords t)))).toNat = (rowOf m t).val := by
  rw [tbl0_apply, Cert.Perm.pos_word, Shape.Idx.ofFin_zero]; rfl
theorem word1 (t : Fin grid0.N) : ((tbl m 1 : IVec S32 32) (Shape.Idx.ofFin (place (grid0.coords t)))).toNat = (catOf m t).val := by
  rw [tbl1_apply, Shape.Idx.ofFin_zero]
  show _ = (Cert.Spec.clipw (cat m (ix1 (rowOf m t)))).toNat
  rw [ix1_eq_ofFin]; rfl

/-! ## A point's blocks, at ANY admissible contents of the tables

Everything here is stated for contents `a` of the two tables that are only assumed to name, at point t's place, the row r
and the category g: which rows and categories those are is a fact about the launch memory, used at the end. -/

/-- Column h of half number q of the 4096 columns. -/
def col (q : Fin 2) (h : Fin 2048) : Fin 4096 := ⟨q.val * 2048 + h.val, by have := q.isLt; have := h.isLt; omega⟩

section AnyTables

variable (a : (pcfg0 (F := Ideal)).Adm)

theorem index0 (t : Fin (cfg0 a).N) : ((cfg0 a).win 0).index t = cc0_transform_0 k0_off1_inb numel1_S1 a.1 (grid0.coords t) := rfl
theorem index1 (t : Fin (cfg0 a).N) : ((cfg0 a).win 1).index t = cc0_transform_1 k0_off1_inb numel1_S1 a.1 (grid0.coords t) := rfl
theorem index2 (t : Fin (cfg0 a).N) : ((cfg0 a).win 2).index t = cc0_transform_2 k0_off1_inb numel1_S1 a.1 (grid0.coords t) := rfl
theorem index3 (t : Fin (cfg0 a).N) : ((cfg0 a).win 3).index t = cc0_transform_3 k0_off1_inb numel1_S1 a.1 (grid0.coords t) := rfl

variable (t : Fin (cfg0 a).N)

/-- A point whose result block no other point shares writes it back: either it is the last point, or the next point's
    block index differs. -/
theorem flush3 (hinj : ∀ t' : Fin (cfg0 a).N, ((cfg0 a).win 3).index t' = ((cfg0 a).win 3).index t → t' = t) :
    ((cfg0 a).win 3).flush t = true := by
  unfold Pipeline.Window.flush
  have hout : ((cfg0 a).win 3).isOut = true := rfl
  rw [hout, Bool.true_and, Bool.or_eq_true, decide_eq_true_eq, decide_eq_true_eq]
  have hN : (cfg0 a).grid.N = (cfg0 a).N := rfl
  by_cases hl : t.val + 1 = (cfg0 a).N
  · exact Or.inl hl
  · refine Or.inr ⟨by have := t.isLt; omega, fun hne => ?_⟩
    have := congrArg Fin.val (hinj _ hne)
    simp at this

variable (pf : pre0.Contents (Elt Ideal)) (hpf : a.1 = pf) (r : Fin 32) (g : Fin 16)
include hpf

theorem idx0 (hr : ((pf 0 : IVec S32 32) (Shape.Idx.ofFin (place (grid0.coords t)))).toNat = r.val) :
    ((cfg0 a).win 0).index t = ![r.val, 0, 0] :=
  (index0 a t).trans ((map0 a.1 (grid0.coords t)).trans (by rw [hpf, hr]))
theorem idx1 (hg : ((pf 1 : IVec S32 32) (Shape.Idx.ofFin (place (grid0.coords t)))).toNat = g.val) :
    ((cfg0 a).win 1).index t = ![g.val, 0, (half (grid0.coords t)).val] :=
  (index1 a t).trans ((map1 a.1 (grid0.coords t)).trans (by rw [hpf, hg]))
theorem idx2 (hg : ((pf 1 : IVec S32 32) (Shape.Idx.ofFin (place (grid0.coords t)))).toNat = g.val) :
    ((cfg0 a).win 2).index t = ![g.val, 0, (half (grid0.coords t)).val] :=
  (index2 a t).trans ((map2 a.1 (grid0.coords t)).trans (by rw [hpf, hg]))
theorem idx3 (hr : ((pf 0 : IVec S32 32) (Shape.Idx.ofFin (place (grid0.coords t)))).toNat = r.val) :
    ((cfg0 a).win 3).index t = ![r.val, 0, (half (grid0.coords t)).val] :=
  (index3 a t).trans ((map3 a.1 (grid0.coords t)).trans (by rw [hpf, hr]))

/-- Entry (0, s, k) of the input block is entry (r, s, k) of the input. -/
theorem emb0 (hr : ((pf 0 : IVec S32 32) (Shape.Idx.ofFin (place (grid0.coords t)))).toNat = r.val) (s : Fin 512) (k : Fin 1024) :
    (((cfg0 a).win 0).blk t).view.emb (ix3 (0 : Fin 1) s k) = ix3 r s k := by
  refine funext fun x => Fin.ext ?_
  have e := idx0 a t pf hpf r hr
  match x with
  | ⟨0, _⟩ =>
    show ((cfg0 a).win 0).index t (0 : Fin 3) * 1 + 1 * 0 = r.val
    rw [e]; show r.val * 1 + 1 * 0 = _; omega
  | ⟨1, _⟩ =>
    show ((cfg0 a).win 0).index t (1 : Fin 3) * 512 + 1 * s.val = s.val
    rw [e]; show 0 * 512 + 1 * s.val = _; omega
  | ⟨2, _⟩ =>
    show ((cfg0 a).win 0).index t (2 : Fin 3) * 1024 + 1 * k.val = k.val
    rw [e]; show 0 * 1024 + 1 * k.val = _; omega

/-- Entry (0, k, h) of the weight block is entry (g, k, column h of the point's half) of the weights. -/
theorem emb1 (hg : ((pf 1 : IVec S32 32) (Shape.Idx.ofFin (place (grid0.coords t)))).toNat = g.val) (k : Fin 1024) (h : Fin 2048) :
    (((cfg0 a).win 1).blk t).view.emb (ix3 (0 : Fin 1) k h) = ix3 g k (col (half (grid0.coords t)) h) := by
  refine funext fun x => Fin.ext ?_
  have e := idx1 a t pf hpf g hg
  match x with
  | ⟨0, _⟩ =>
    show ((cfg0 a).win 1).index t (0 : Fin 3) * 1 + 1 * 0 = g.val
    rw [e]; show g.val * 1 + 1 * 0 = _; omega
  | ⟨1, _⟩ =>
    show ((cfg0 a).win 1).index t (1 : Fin 3) * 1024 + 1 * k.val = k.val
    rw [e]; show 0 * 1024 + 1 * k.val = _; omega
  | ⟨2, _⟩ =>
    show ((cfg0 a).win 1).index t (2 : Fin 3) * 2048 + 1 * h.val = (half (grid0.coords t)).val * 2048 + h.val
    rw [e]; show (half (grid0.coords t)).val * 2048 + 1 * h.val = _; omega

/-- Entry (0, 0, h) of the bias block is entry (g, 0, column h of the point's half) of the bias with its unit axis. -/
theorem emb2 (hg : ((pf 1 : IVec S32 32) (Shape.Idx.ofFin (place (grid0.coords t)))).toNat = g.val) (h : Fin 2048) :
    (((cfg0 a).win 2).blk t).view.emb (ix3 (0 : Fin 1) (0 : Fin 1) h) = ix3 g (0 : Fin 1) (col (half (grid0.coords t)) h) := by
  refine funext fun x => Fin.ext ?_
  have e := idx2 a t pf hpf g hg
  match x with
  | ⟨0, _⟩ =>
    show ((cfg0 a).win 2).index t (0 : Fin 3) * 1 + 1 * 0 = g.val
    rw [e]; show g.val * 1 + 1 * 0 = _; omega
  | ⟨1, _⟩ =>
    show ((cfg0 a).win 2).index t (1 : Fin 3) * 1 + 1 * 0 = 0
    rw [e]; show 0 * 1 + 1 * 0 = _; omega
  | ⟨2, _⟩ =>
    show ((cfg0 a).win 2).index t (2 : Fin 3) * 2048 + 1 * h.val = (half (grid0.coords t)).val * 2048 + h.val
    rw [e]; show (half (grid0.coords t)).val * 2048 + 1 * h.val = _; omega

/-- Entry (0, s, h) of the result block is entry (r, s, column h of the point's half) of the result. -/
theorem emb3 (hr : ((pf 0 : IVec S32 32) (Shape.Idx.ofFin (place (grid0.coords t)))).toNat = r.val) (s : Fin 512) (h : Fin 2048) :
    (((cfg0 a).win 3).blk t).view.emb (ix3 (0 : Fin 1) s h) = ix3 r s (col (half (grid0.coords t)) h) := by
  refine funext fun x => Fin.ext ?_
  have e := idx3 a t pf hpf r hr
  match x with
  | ⟨0, _⟩ =>
    show ((cfg0 a).win 3).index t (0 : Fin 3) * 1 + 1 * 0 = r.val
    rw [e]; show r.val * 1 + 1 * 0 = _; omega
  | ⟨1, _⟩ =>
    show ((cfg0 a).win 3).index t (1 : Fin 3) * 512 + 1 * s.val = s.val
    rw [e]; show 0 * 512 + 1 * s.val = _; omega
  | ⟨2, _⟩ =>
    show ((cfg0 a).win 3).index t (2 : Fin 3) * 2048 + 1 * h.val = (half (grid0.coords t)).val * 2048 + h.val
    rw [e]; show (half (grid0.coords t)).val * 2048 + 1 * h.val = _; omega

end AnyTables

/-! ## At the tables read off the launch memory -/

/-- The four arrays. -/
abbrev xs (c : Dev nD) : FVec Ideal S32x512x1024 .f32 := m ((c : Thread nD τ).loc main_arg0)
abbrev ws (c : Dev nD) : FVec Ideal S16x1024x4096 .f32 := m ((c : Thread nD τ).loc main_arg2)
abbrev bs (c : Dev nD) : FVec Ideal S16x4096 .f32 := m ((c : Thread nD τ).loc main_arg3)

/-- The input block of point t is batch row rowOf t. -/
theorem iblk0_apply (c : Dev nD) (t : Fin (cfgM m (hO m)).N) (s : Fin 512) (k : Fin 1024) :
    iblk m (hO m) c 0 t (ix3 (0 : Fin 1) s k) = xs m c (ix3 (rowOf m t) s k) := by
  show V m c main_arg0 ((((cfg0 (adm m (hO m))).win 0).blk t).view.emb (ix3 (0 : Fin 1) s k)) = _
  rw [emb0 (adm m (hO m)) t (tbl m) rfl (rowOf m t) (word0 m t) s k, V_main_arg0]

/-- The weight block of point t is its half of the columns of category catOf t. -/
theorem iblk1_apply (c : Dev nD) (t : Fin (cfgM m (hO m)).N) (k : Fin 1024) (h : Fin 2048) :
    iblk m (hO m) c 1 t (ix3 (0 : Fin 1) k h) = ws m c (ix3 (catOf m t) k (col (half (grid0.coords t)) h)) := by
  show V m c main_arg2 ((((cfg0 (adm m (hO m))).win 1).blk t).view.emb (ix3 (0 : Fin 1) k h)) = _
  rw [emb1 (adm m (hO m)) t (tbl m) rfl (catOf m t) (word1 m t) k h, V_main_arg2]

/-- The bias block of point t is its half of the bias row of category catOf t: the bias array with a unit axis inserted
    reads, at (category, 0, column), the bias at (category, column). -/
theorem iblk2_apply (c : Dev nD) (t : Fin (cfgM m (hO m)).N) (h : Fin 2048) :
    iblk m (hO m) c 2 t (ix3 (0 : Fin 1) (0 : Fin 1) h) = bs m c (ix2 (catOf m t) (col (half (grid0.coords t)) h)) := by
  show V m c main_v9 ((((cfg0 (adm m (hO m))).win 2).blk t).view.emb (ix3 (0 : Fin 1) (0 : Fin 1) h)) = _
  rw [emb2 (adm m (hO m)) t (tbl m) rfl (catOf m t) (word1 m t) h, V_bias]
  refine shapeCast_apply (bs m c) _ _ (ix2 (catOf m t) (col (half (grid0.coords t)) h)) ?_
  rw [Shape.rowMajor_val_two, Shape.rowMajor_val_three]
  show (catOf m t).val * 4096 + (col (half (grid0.coords t)) h).val = ((catOf m t).val * 1 + 0) * 4096 + (col (half (grid0.coords t)) h).val
  omega

/-! ## What a point writes back -/

/-- The result array both programs are shown to leave. -/
abbrev Gk (c : Dev nD) : FVec Ideal S32x512x4096 .f32 :=
  Cert.Spec.G (xs m c) (Cert.Spec.krow (cat m)) (ws m c) (bs m c)

/-- Entry (0, s, h) of what point t leaves in its result block is entry (rowOf t, s, column h of t's half) of the
    result array. -/
theorem point_eq (c : Dev nD) (t : Fin (cfgM m (hO m)).N) (s : Fin 512) (h : Fin 2048) :
    outsAt0 m (hO m) c t (ix3 (0 : Fin 1) s h) = Gk m c (ix3 (rowOf m t) s (col (half (grid0.coords t)) h)) := by
  unfold outsAt0
  refine (Cert.KernelIdeal.Body.out_apply c (grid0.coords t) (ms0_0 m (hO m) t) (hs0_0 m (hO m) t) (ms0_1 m (hO m) t) (hs0_1 m (hO m) t)
    (ms0_2 m (hO m) t) (hs0_2 m (hO m) t) (ms0_3 m (hO m) t) (hs0_3 m (hO m) t) (iblk m (hO m) c 0 t) (iblk m (hO m) c 1 t) (iblk m (hO m) c 2 t)
    (tbl m 0) (tbl m 1) s h).trans ?_
  rw [iblk2_apply]
  show _ = (∑ k : Fin 1024, xs m c (ix3 (rowOf m t) s k) * ws m c (ix3 (catOf m t) k (col (half (grid0.coords t)) h)))
    + bs m c (ix2 (catOf m t) (col (half (grid0.coords t)) h))
  refine congrArg (· + _) (Finset.sum_congr rfl fun k _ => ?_)
  rw [iblk0_apply, iblk1_apply]

/-- An index of a [1, 512, 2048] block from its coordinates. -/
theorem blk_idx (y : S1x512x2048.Idx) : y = ix3 (0 : Fin 1) (y 1) (y 2) := by
  have h := eq_ix3 y
  have h0 : y 0 = (0 : Fin 1) := Fin.ext (by have : (y 0).val < 1 := (y 0).isLt; show (y 0).val = 0; omega)
  rw [h0] at h; exact h

/-- WHAT POINT t WRITES BACK is its block of the result array. -/
theorem flushed_eq (c : Dev nD) (t : Fin (cfgM m (hO m)).N) :
    (dats m (hO m) 0 c).flushed 3 t = (((cfgM m (hO m)).win 3).blk t).view.read (Elt Ideal) (Gk m c) := by
  show ((cfgM m (hO m)).win 3).cut ((cfgM m (hO m)).grid.coords t) ((dats m (hO m) 0 c).after 3 t) = _
  rw [after0_3]
  refine funext fun (y : S1x512x2048.Idx) => ?_
  rw [blk_idx y]
  show outsAt0 m (hO m) c t (ix3 (0 : Fin 1) (y 1) (y 2))
    = Gk m c ((((cfg0 (adm m (hO m))).win 3).blk t).view.emb (ix3 (0 : Fin 1) (y 1) (y 2)))
  rw [emb3 (adm m (hO m)) t (tbl m) rfl (rowOf m t) (word0 m t) (y 1) (y 2)]
  exact point_eq m c t (y 1) (y 2)

/-! ## Every point writes back, and the blocks tile the result -/

/-- The sorted order lists no batch row twice. -/
theorem sg_injective (ids : IVec S32 32) : Function.Injective (sg ids) := by
  unfold sg Cert.Perm.σ; exact sortedFrom_injective _

/-- Two points with the same result block are the same point: the block's row fixes the place, its half the half. -/
theorem point_unique (t t' : Fin (cfgM m (hO m)).N)
    (h : ((cfgM m (hO m)).win 3).index t' = ((cfgM m (hO m)).win 3).index t) : t' = t := by
  rw [idx3 (adm m (hO m)) t (tbl m) rfl (rowOf m t) (word0 m t), idx3 (adm m (hO m)) t' (tbl m) rfl (rowOf m t') (word0 m t')] at h
  have h0 : (rowOf m t').val = (rowOf m t).val := congrFun h 0
  have h2 : (grid0.coords t' 0).val = (grid0.coords t 0).val := congrFun h 2
  have hp : place (grid0.coords t') = place (grid0.coords t) := sg_injective (cat m) (Fin.ext h0)
  have hp' : (grid0.coords t' 1).val = (grid0.coords t 1).val := congrArg Fin.val hp
  obtain ⟨a0, a1⟩ := coords_val t
  obtain ⟨b0, b1⟩ := coords_val t'
  apply Fin.ext
  omega

/-- Every entry of the result is in the block of a point that writes it back. -/
theorem cover (i : S32x512x4096.Idx) :
    ∃ t : Fin (cfgM m (hO m)).N, ((cfgM m (hO m)).win 3).flush t = true ∧ i ∈ (((cfgM m (hO m)).win 3).blk t).view.set := by
  obtain ⟨pl, hpl⟩ := sg_surjective (cat m) ⟨(i 0).val, (i 0).isLt⟩
  have hi2 : (i 2).val < 4096 := (i 2).isLt
  have hpl32 := pl.isLt
  let t : Fin grid0.N := ⟨(i 2).val / 2048 * 32 + pl.val, by show _ < 64; omega⟩
  obtain ⟨c0, c1⟩ := coords_val t
  have hplace : place (grid0.coords t) = pl := Fin.ext (by
    show (grid0.coords t 1).val = pl.val
    rw [c1]; show ((i 2).val / 2048 * 32 + pl.val) % 32 = pl.val; omega)
  have hrow : (rowOf m t).val = (i 0).val := by
    unfold rowOf; rw [hplace, hpl]
  have hhalf : (half (grid0.coords t)).val = (i 2).val / 2048 := by
    show (grid0.coords t 0).val = _
    rw [c0]; show ((i 2).val / 2048 * 32 + pl.val) / 32 = (i 2).val / 2048; omega
  refine ⟨t, flush3 (adm m (hO m)) t (fun t' h => point_unique m t t' h), ?_⟩
  -- the entry is the image of the block index (0, i 1, (i 2) mod 2048)
  have hi : i = (((cfg0 (adm m (hO m))).win 3).blk t).view.emb (ix3 (0 : Fin 1) (i 1) ⟨(i 2).val % 2048, Nat.mod_lt _ (by decide)⟩) := by
    rw [emb3 (adm m (hO m)) t (tbl m) rfl (rowOf m t) (word0 m t) (i 1) ⟨(i 2).val % 2048, Nat.mod_lt _ (by decide)⟩]
    refine (eq_ix3 i).trans ?_
    refine congr (congrArg (fun p => ix3 p (i 1)) (Fin.ext hrow.symm)) (Fin.ext ?_)
    show (i 2).val = (half (grid0.coords t)).val * 2048 + (i 2).val % 2048
    rw [hhalf]; omega
  rw [hi]
  exact View.emb_mem_set _ _

/-- THE RESULT ARRAY after the run. -/
theorem final (c : Dev nD) : (dats m (hO m) 0 c).arrAt 3 (cfgM m (hO m)).N = Gk m c :=
  (dats m (hO m) 0 c).arrAt_eq_of_cover 3 (Gk m c) (fun t _ => flushed_eq m c t) (cover m)

/-- THE RUN with its result named: every weakly fair execution terminates with the result array at the specification
    and the four argument arrays unchanged. -/
theorem run : θ_run defs (onTc (τ := τ) (main (F := Ideal))) ⟨m, fun _ => 0, ρ⟩ fun r => ∀ c : Dev nD,
      r.2.mem ((c.tc : Thread nD τ).loc main_v10) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m c),
      ((h c).1 0).trans (((dats m (hO m) 0 c).arrAt_in 0 rfl _).trans ((A_eq m (hO m) c 0).trans (V_main_arg0 m c))),
      ((h c).2 main_arg1 (by decide : main_arg1 ∈ Pipeline.restRefs sig spec0)).trans (V_main_arg1 m c),
      ((h c).1 1).trans (((dats m (hO m) 0 c).arrAt_in 1 rfl _).trans ((A_eq m (hO m) c 1).trans (V_main_arg2 m c))),
      ((h c).2 main_arg3 (by decide : main_arg3 ∈ Pipeline.restRefs sig spec0)).trans (V_main_arg3 m c)⟩)
    (run_main m ρ (hO m))

end Cert.KernelIdeal.KValue

end
-- ==== Proof.RefValue.lean ====
/-
  The indexing program's result, read at an index.
-/
import proofs.«413426_j59820304499003_2_alg».proof.Proof.Gen.ReferenceIdeal.Read
import proofs.«413426_j59820304499003_2_alg».proof.Proof.Spec

noncomputable section

namespace Cert.ReferenceIdeal.RefValue

open Cert.ReferenceIdeal Idealize.ShloMosaic Idealize.ShloMosaic.ValueIdx

/-- The weight table's gather: rows of a 16 × 1024 × 4096 table picked by a 32 × 1 column of start indices. -/
abbrev dW : GatherDims S16x1024x4096 S32x1 S32x1024x4096 := gather_S16x1024x4096_S32x1_S32x1024x4096_12_0_n_n_0_1_110244096
/-- The bias table's gather: rows of a 16 × 4096 table picked by a 32 × 1 column of start indices. -/
abbrev dB : GatherDims S16x4096 S32x1 S32x4096 := gather_S16x4096_S32x1_S32x4096_1_0_n_n_0_1_14096

/-- The start index the weight gather reads for batch row p: the category id, with 16 added when it is negative. -/
theorem v5_at (x1 : (⟨S32, .i32⟩ : BufTy).Contents (Elt Ideal)) (p : Fin 32) (c : Fin 1) :
    Read.val_main_v5 (F := Ideal) x1 (ix2 p c) = Cert.Spec.wrapw (x1 (ix1 p)) := by
  rw [Read.val_main_v5_apply, Read.val_main_v4_apply, Read.val_main_v1_apply, Read.val_main_v3_apply,
    Read.val_main_v0_apply, Read.val_main_v2_apply, Read.val_main_c_apply, Read.val_main_c_0_apply]
  have e : Read.idx_main_v5 (ix2 p c) = ix1 p := by
    funext a; match a with | ⟨0, _⟩ => rfl
  rw [e]
  rfl

/-- On the table's row axis the weight gather reads the start index of its batch row, read signed and kept in 0 … 15. -/
theorem opW_0 (idx : IVec S32x1 32) (p : Fin 32) (k : Fin 1024) (h : Fin 4096) :
    (dW.operandIdx (ix3 p k h) idx 0).val = min (idx (ix2 p 0)).toInt.toNat 15 := by
  show dW.start (ix3 p k h) idx 0 + dW.batchCoord (ix3 p k h) 0 + dW.offCoord (ix3 p k h) 0 = _
  rw [GatherDims.batchCoord_eq_zero _ _ _ (by decide),
    GatherDims.offCoord_eq_zero _ _ _ (by rw [GatherDims.mem_sKept]; decide), Nat.add_zero]
  unfold GatherDims.start
  rw [dif_pos (show (0 : Fin S16x1024x4096.rank) ∈ dW.startIndexMap by decide)]
  have hsi : dW.siIdx (ix3 p k h) ⟨List.idxOf (0 : Fin S16x1024x4096.rank) dW.startIndexMap,
      List.idxOf_lt_length_iff.2 (by decide)⟩ = ix2 p 0 := by
    funext b; refine Fin.ext ?_
    match b with
    | ⟨0, _⟩ => rfl
    | ⟨1, _⟩ => rfl
  rw [hsi]
  rfl

/-- On the contraction axis the weight gather reads the result's own coordinate: the axis is kept whole. -/
theorem opW_1 (idx : IVec S32x1 32) (p : Fin 32) (k : Fin 1024) (h : Fin 4096) :
    (dW.operandIdx (ix3 p k h) idx 1).val = k.val := by
  show dW.start (ix3 p k h) idx 1 + dW.batchCoord (ix3 p k h) 1 + dW.offCoord (ix3 p k h) 1 = _
  rw [GatherDims.batchCoord_eq_zero _ _ _ (by decide), Nat.add_zero]
  unfold GatherDims.start GatherDims.offCoord
  rw [dif_neg (show ¬(1 : Fin S16x1024x4096.rank) ∈ dW.startIndexMap by decide),
    dif_pos (show (1 : Fin S16x1024x4096.rank) ∈ dW.sKept by rw [GatherDims.mem_sKept]; decide), Nat.zero_add]
  rfl

/-- On the output-feature axis the weight gather reads the result's own coordinate. -/
theorem opW_2 (idx : IVec S32x1 32) (p : Fin 32) (k : Fin 1024) (h : Fin 4096) :
    (dW.operandIdx (ix3 p k h) idx 2).val = h.val := by
  show dW.start (ix3 p k h) idx 2 + dW.batchCoord (ix3 p k h) 2 + dW.offCoord (ix3 p k h) 2 = _
  rw [GatherDims.batchCoord_eq_zero _ _ _ (by decide), Nat.add_zero]
  unfold GatherDims.start GatherDims.offCoord
  rw [dif_neg (show ¬(2 : Fin S16x1024x4096.rank) ∈ dW.startIndexMap by decide),
    dif_pos (show (2 : Fin S16x1024x4096.rank) ∈ dW.sKept by rw [GatherDims.mem_sKept]; decide), Nat.zero_add]
  rfl

/-- The gathered weights at (p, k, h): the table's row for batch row p, at (k, h). -/
theorem v6_at (x1 : (⟨S32, .i32⟩ : BufTy).Contents (Elt Ideal)) (x2 : (⟨S16x1024x4096, .f32⟩ : BufTy).Contents (Elt Ideal))
    (p : Fin 32) (k : Fin 1024) (h : Fin 4096) :
    Read.val_main_v6 (F := Ideal) x1 x2 (ix3 p k h) = x2 (ix3 (Cert.Spec.rrow x1 p) k h) := by
  unfold Read.val_main_v6 Host.gather
  refine congrArg x2 (funext fun a => Fin.ext ?_)
  match a with
  | ⟨0, _⟩ => exact (opW_0 _ p k h).trans (by rw [v5_at]; rfl)
  | ⟨1, _⟩ => exact opW_1 _ p k h
  | ⟨2, _⟩ => exact opW_2 _ p k h

/-- The start index the bias gather reads for batch row p: the same wrapped category id. -/
theorem v12_at (x1 : (⟨S32, .i32⟩ : BufTy).Contents (Elt Ideal)) (p : Fin 32) (c : Fin 1) :
    Read.val_main_v12 (F := Ideal) x1 (ix2 p c) = Cert.Spec.wrapw (x1 (ix1 p)) := by
  rw [Read.val_main_v12_apply, Read.val_main_v11_apply, Read.val_main_v8_apply, Read.val_main_v10_apply,
    Read.val_main_v7_apply, Read.val_main_v9_apply, Read.val_main_c_1_apply, Read.val_main_c_2_apply]
  have e : Read.idx_main_v12 (ix2 p c) = ix1 p := by
    funext a; match a with | ⟨0, _⟩ => rfl
  rw [e]
  rfl

/-- On the table's row axis the bias gather reads the start index of its batch row, read signed and kept in 0 … 15. -/
theorem opB_0 (idx : IVec S32x1 32) (p : Fin 32) (h : Fin 4096) :
    (dB.operandIdx (ix2 p h) idx 0).val = min (idx (ix2 p 0)).toInt.toNat 15 := by
  show dB.start (ix2 p h) idx 0 + dB.batchCoord (ix2 p h) 0 + dB.offCoord (ix2 p h) 0 = _
  rw [GatherDims.batchCoord_eq_zero _ _ _ (by decide),
    GatherDims.offCoord_eq_zero _ _ _ (by rw [GatherDims.mem_sKept]; decide), Nat.add_zero]
  unfold GatherDims.start
  rw [dif_pos (show (0 : Fin S16x4096.rank) ∈ dB.startIndexMap by decide)]
  have hsi : dB.siIdx (ix2 p h) ⟨List.idxOf (0 : Fin S16x4096.rank) dB.startIndexMap,
      List.idxOf_lt_length_iff.2 (by decide)⟩ = ix2 p 0 := by
    funext b; refine Fin.ext ?_
    match b with
    | ⟨0, _⟩ => rfl
    | ⟨1, _⟩ => rfl
  rw [hsi]
  rfl

/-- On the output-feature axis the bias gather reads the result's own coordinate. -/
theorem opB_1 (idx : IVec S32x1 32) (p : Fin 32) (h : Fin 4096) :
    (dB.operandIdx (ix2 p h) idx 1).val = h.val := by
  show dB.start (ix2 p h) idx 1 + dB.batchCoord (ix2 p h) 1 + dB.offCoord (ix2 p h) 1 = _
  rw [GatherDims.batchCoord_eq_zero _ _ _ (by decide), Nat.add_zero]
  unfold GatherDims.start GatherDims.offCoord
  rw [dif_neg (show ¬(1 : Fin S16x4096.rank) ∈ dB.startIndexMap by decide),
    dif_pos (show (1 : Fin S16x4096.rank) ∈ dB.sKept by rw [GatherDims.mem_sKept]; decide), Nat.zero_add]
  rfl

/-- The gathered bias at (p, h): the table's row for batch row p, at h. -/
theorem v13_at (x1 : (⟨S32, .i32⟩ : BufTy).Contents (Elt Ideal)) (x3 : (⟨S16x4096, .f32⟩ : BufTy).Contents (Elt Ideal))
    (p : Fin 32) (h : Fin 4096) :
    Read.val_main_v13 (F := Ideal) x1 x3 (ix2 p h) = x3 (ix2 (Cert.Spec.rrow x1 p) h) := by
  unfold Read.val_main_v13 Host.gather
  refine congrArg x3 (funext fun a => Fin.ext ?_)
  match a with
  | ⟨0, _⟩ => exact (opB_0 _ p h).trans (by rw [v12_at]; rfl)
  | ⟨1, _⟩ => exact opB_1 _ p h

/-- The indexing program's result is the specification at the rows it reads. -/
theorem ref_eq (x0 : (⟨S32x512x1024, .f32⟩ : BufTy).Contents (Elt Ideal)) (x1 : (⟨S32, .i32⟩ : BufTy).Contents (Elt Ideal))
    (x2 : (⟨S16x1024x4096, .f32⟩ : BufTy).Contents (Elt Ideal)) (x3 : (⟨S16x4096, .f32⟩ : BufTy).Contents (Elt Ideal)) :
    Cert.ReferenceIdeal.Read.val_main_v17 (F := Ideal) x0 x1 x2 x3 = Cert.Spec.G x0 (Cert.Spec.rrow x1) x2 x3 := by
  funext i
  obtain ⟨p, s, h, rfl⟩ : ∃ p s h, i = ix3 p s h := ⟨i 0, i 1, i 2, eq_ix3 i⟩
  rw [Read.val_main_v17_apply, Read.val_main_v14_apply, Read.val_main_v16_apply, Read.val_main_v15_apply, Cert.Spec.G_ix3,
    Ideal.addf_def]
  have el : ∀ k : Fin 1024, Read.lidx_main_v14 (ix3 p s h) k = ix3 p s k := fun k => by
    funext a; match a with | ⟨0, _⟩ => rfl | ⟨1, _⟩ => rfl | ⟨2, _⟩ => rfl
  have er : ∀ k : Fin 1024, Read.ridx_main_v14 (ix3 p s h) k = ix3 p k h := fun k => by
    funext a; match a with | ⟨0, _⟩ => rfl | ⟨1, _⟩ => rfl | ⟨2, _⟩ => rfl
  have eb : Read.idx_main_v15 (Read.idx_main_v16 (ix3 p s h)) = ix2 p h := by
    funext a; match a with | ⟨0, _⟩ => rfl | ⟨1, _⟩ => rfl
  rw [eb, v13_at]
  unfold Cert.Spec.Gat
  refine congrArg (· + x3 (ix2 (Cert.Spec.rrow x1 p) h)) (Finset.sum_congr rfl fun k _ => ?_)
  rw [el, er, v6_at]

end Cert.ReferenceIdeal.RefValue

end
-- ==== Proof.PreDecode.lean ====
/-
  What the precondition says about the category ids: none is negative.
-/
import proofs.«413426_j59820304499003_2_alg».proof.Defs
import proofs.«413426_j59820304499003_2_alg».proof.Proof.Gen.Pre_finite_inputs
import proofs.«413426_j59820304499003_2_alg».proof.Proof.Spec
import Idealize.ShloMosaic.Lib.ReduceAll

noncomputable section

namespace Cert.PreDecode

open Idealize.ShloMosaic Idealize.ShloMosaic.ValueIdx

/-- The scalar shape has one index. -/
instance subsingleton_scalar_idx : Subsingleton Cert.Pre_finite_inputs.S_.Idx := ⟨fun a b => funext fun d => d.elim0⟩

/-- Where the printed precondition is all ones, every category id is at least 0 as a signed number (the
    precondition's last conjunct: the ids compared with 0, all of them). -/
theorem ids_nonneg {F : FTy → Type} [FloatOps F] [Cert.Pre_finite_inputs.Facts]
    (x0 : FVec F Cert.Pre_finite_inputs.S32x512x1024 .f32) (ids : IVec Cert.Pre_finite_inputs.S32 32)
    (x2 : FVec F Cert.Pre_finite_inputs.S16x1024x4096 .f32) (x3 : FVec F Cert.Pre_finite_inputs.S16x4096 .f32)
    (h : Cert.Pre_finite_inputs.fn (F := F) x0 ids x2 x3 = fun _ => 1#1) (p : Fin 32) :
    0 ≤ (ids (ix1 p)).toInt := by
  -- the predicate's one entry is a conjunction of 1-bit words; its last conjunct is the conjunction over all ids of "id ≥ 0"
  have h0 := congrFun h ix0
  unfold Cert.Pre_finite_inputs.fn Cert.Pre_finite_inputs.fn_part1 at h0
  dsimp only at h0
  change IntOp.andi _ _ = 1#1 at h0
  obtain ⟨-, h2⟩ := IntOp.andi_eq_one.1 h0
  -- a conjunction over all entries that is 1 had a 1 at every entry, the one of id p among them
  have h3 := Host.reduce_andi_all _ _ _ _ _ h2 (ix1 p)
  change IntOp.cmpi .sge (ids (ix1 p)) 0#32 = 1#1 at h3
  rw [IntOp.cmpi_sge] at h3
  exact h3

end Cert.PreDecode

end
-- ==== Proof.lean ====
/-
  A category-specific linear layer: out[p, s, h] = (∑ k, x[p, s, k] · W[c p, k, h]) + b[c p, h], where c p is the
  category of batch row p.

  One program clips every category id into 0 … 15, sorts the batch rows by clipped id, and walks a 2 × 32 grid whose
  point (half, place) computes one half of the columns of the batch row in that place of the sorted order, reading that
  row's category through two small tables (the sorted rows, their categories). The other gathers W[id] and b[id] for
  every row, indexing as arrays are indexed (a negative id counts from the end, the result kept inside the table), and
  takes one batched product. Over the extended reals, with every change of float format the identity, both compute the
  formula above; they differ only in which row of the tables a NEGATIVE id selects, and the precondition says no id is
  negative. Then clip(id) = min(id, 15) is also what the array indexing reads, and the two results agree entry by
  entry — the sums are over the same k in the same order, so no law of arithmetic is used beyond that.

  The frames: the clipping program's tables name rows below 32 and categories below 16 for ANY ids (they are built from
  clipped ids and from a permutation of the positions), which is the side condition its generated frame takes; the
  reference's frame is its generated run with the result dropped. The idealization rewrote nothing.
-/
import proofs.«413426_j59820304499003_2_alg».proof.Defs
import proofs.«413426_j59820304499003_2_alg».proof.Proof.Gen.Kernel
import proofs.«413426_j59820304499003_2_alg».proof.Proof.Gen.Kernel.Skeleton
import proofs.«413426_j59820304499003_2_alg».proof.Proof.Gen.Kernel.Launch
import proofs.«413426_j59820304499003_2_alg».proof.Proof.Gen.Kernel.Points
import proofs.«413426_j59820304499003_2_alg».proof.Proof.Gen.Kernel.Frame
import proofs.«413426_j59820304499003_2_alg».proof.Proof.Gen.KernelIdeal
import proofs.«413426_j59820304499003_2_alg».proof.Proof.Gen.KernelIdeal.Skeleton
import proofs.«413426_j59820304499003_2_alg».proof.Proof.Gen.KernelIdeal.Launch
import proofs.«413426_j59820304499003_2_alg».proof.Proof.Gen.KernelIdeal.Points
import proofs.«413426_j59820304499003_2_alg».proof.Proof.Gen.KernelIdeal.Frame
import proofs.«413426_j59820304499003_2_alg».proof.Proof.Gen.ReferenceIdeal
import proofs.«413426_j59820304499003_2_alg».proof.Proof.Gen.ReferenceIdeal.Run
import proofs.«413426_j59820304499003_2_alg».proof.Proof.Gen.ReferenceIdeal.Read
import proofs.«413426_j59820304499003_2_alg».proof.Proof.Gen.Pre_finite_inputs
import proofs.«413426_j59820304499003_2_alg».proof.Proof.TablesBits
import proofs.«413426_j59820304499003_2_alg».proof.Proof.TablesIdeal
import proofs.«413426_j59820304499003_2_alg».proof.Proof.KernelValue
import proofs.«413426_j59820304499003_2_alg».proof.Proof.RefValue
import proofs.«413426_j59820304499003_2_alg».proof.Proof.PreDecode
import Idealize.ShloMosaic.Adequacy
import Idealize.ShloMosaic.Init

noncomputable section

namespace Cert.Proof

open Idealize.ShloMosaic Idealize.SL.Sem Cert.Kernel

/-- Both programs end with the same result array: the clipping program's run leaves the specification at the clipped
    ids' rows, the indexing program's at the rows array indexing reads, and where no id is negative these are the same
    rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.Gk m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v17_eq _ _ _ _).trans ?_
  refine (Cert.ReferenceIdeal.RefValue.ref_eq _ _ _ _).trans ?_
  obtain rfl : c = 0 := Subsingleton.elim _ _
  show Cert.Spec.G _ (Cert.Spec.rrow (Cert.KernelIdeal.Tables.cat m)) _ _
    = Cert.Spec.G _ (Cert.Spec.krow (Cert.KernelIdeal.Tables.cat m)) _ _
  rw [Cert.Spec.krow_eq_rrow _ (fun p => Cert.PreDecode.ids_nonneg _ _ _ _ (hpre 0) p)]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ (Cert.Kernel.Tables.ok m),
  fun m ρ _ => Cert.KernelIdeal.Gen.frame m ρ (Cert.KernelIdeal.Tables.ok m),
  fun m ρ _ => (θ_run Cert.ReferenceIdeal.defs _ _).mono (fun _ h c => (h c).2) (Cert.ReferenceIdeal.Value.run (F := Ideal) m ρ),
  trivial,
  algebraic⟩

end Cert.Proof

end
